-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S100000x1 : Shape := ⟨2, ![100000, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S100000x1 .f32) (main_arg3 : FVec F S100000x1 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S100000x1 : Shape := ⟨2, ![100000, 1]⟩
abbrev S1600000 : Shape := ⟨1, ![1600000]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S10000x1 : Shape := ⟨2, ![10000, 1]⟩

abbrev nBuf : Space → Nat
  | .hbm => 21
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S100000x1, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S10000x64, .f32⟩
  | .local _ .vmem, ⟨12, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S100000x1 : Shape := ⟨2, ![100000, 1]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S100000x1, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x64, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.GraphConvSpec.lean ====
/-
  The graph convolution both programs compute, written once as functions of the argument arrays, index by
  index, on the extended reals.

  * `feat`: row `r` of the product `x · w` (a sum over the 128 input features), scaled by the source-side norm
    `cj r`;
  * `aggregate`: the message passing — each edge's source index is brought into range (a negative index counts
    from the end), the rows of the features are gathered along the edges and summed into the rows named by the
    destination indices, starting from zero. Both programs apply these operations as they stand to a feature
    array; nothing here looks inside them;
  * `scaled`: row `r` of the aggregate scaled by the destination-side norm `ci r`.
-/
import proofs.«151857_j223338299478_1_alg».proof.Proof.Gen.KernelIdeal
import proofs.«151857_j223338299478_1_alg».proof.Proof.LibRowOps

noncomputable section

namespace Cert.GraphConv

open Idealize.ShloMosaic Idealize.ShloMosaic.ValueIdx Idealize.ShloMosaic.TcCoe Cert.KernelIdeal Cert.KernelIdeal.Facts₀

/-- Entry `(r, j)` of the scaled feature transform: `(Σ k, x (r, k) · w (k, j)) · cj r`. -/
def featAt (x : FVec Ideal S100000x128 .f32) (w : FVec Ideal S128x64 .f32) (cj : FVec Ideal S100000x1 .f32)
    (r : Fin 100000) (j : Fin 64) : EReal :=
  (∑ k : Fin 128, x (ix2 r k) * w (ix2 k j)) * cj (ix2 r (0 : Fin 1))

/-- The scaled feature transform as an array. -/
def feat (x : FVec Ideal S100000x128 .f32) (w : FVec Ideal S128x64 .f32) (cj : FVec Ideal S100000x1 .f32) :
    FVec Ideal S100000x64 .f32 :=
  fun i => featAt x w cj (i 0) (i 1)

theorem feat_apply (x : FVec Ideal S100000x128 .f32) (w : FVec Ideal S128x64 .f32) (cj : FVec Ideal S100000x1 .f32)
    (r : Fin 100000) (j : Fin 64) : feat x w cj (ix2 r j) = featAt x w cj r j := rfl

/-- Entry `(r, j)` of an array scaled row by row: `a (r, j) · ci r`. -/
def scaled (a : FVec Ideal S100000x64 .f32) (ci : FVec Ideal S100000x1 .f32) : FVec Ideal S100000x64 .f32 :=
  fun i => a i * ci (ix2 (i 0) (0 : Fin 1))

theorem scaled_apply (a : FVec Ideal S100000x64 .f32) (ci : FVec Ideal S100000x1 .f32) (r : Fin 100000) (j : Fin 64) :
    scaled a ci (ix2 r j) = a (ix2 r j) * ci (ix2 r (0 : Fin 1)) := rfl

/-- The message passing over the edges, applied to a feature array `h`: source indices normalised, rows gathered
    along the edges, and summed from zero into the destination rows. -/
def aggregate (h : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.GraphConv

end
-- ==== Proof.TransformBlock.lean ====
/-
  The first kernel region (the feature transform) as a value: after its twenty grid points have written back,
  the output array is `feat` of the three arrays the region reads.

  Point `t` loads rows `5000·t … 5000·t + 4999` of `x` and of `cj` and the whole of `w`; its one store writes, at
  `(p, q)` of the block, the matrix product's entry `Σ k, x (5000·t + p, k) · w (k, q)` (the conversion to bf16 is
  the identity on the extended reals, and the product starts from a zero accumulator) times `cj (5000·t + p)`.
  That is entry `(5000·t + p, q)` of `feat`, and the twenty blocks tile the hundred thousand rows.
-/
import proofs.«151857_j223338299478_1_alg».proof.Proof.Gen.KernelIdeal.Frame
import proofs.«151857_j223338299478_1_alg».proof.Proof.GraphConvSpec

set_option maxRecDepth 16384

noncomputable section

namespace Cert.GraphConv.Transform

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- The body's store at `(p, q)` of the block: the row-`p` dot product with column `q` of the weights, times the
    row's norm. -/
theorem pay_apply (x0 : Vec Ideal S5000x128 .f32) (x1 : Vec Ideal S128x64 .f32) (x2 : Vec Ideal S5000x1 .f32)
    (p : Fin 5000) (q : Fin 64) :
    k0_pay1 (F := Ideal) x0 x1 x2 (ix2 p q)
      = (∑ k : Fin 128, x0 (ix2 p k) * x1 (ix2 k q)) * x2 (ix2 p (0 : Fin 1)) := by
  unfold k0_pay1
  refine (mulf_apply _ _ _).trans ?_
  refine congrArg₂ (· * ·) ?_ ?_
  · exact Cert.RowOps.matmul_apply _ none _ _ p q
  · exact Cert.RowOps.broadcastTo_a1_ab_apply x2 _ p q

theorem origin : (![0, 0] : Fin 2 → Nat) = fun _ => 0 := funext fun a => by fin_cases a <;> rfl

/-- The index maps over the grid: the row windows move with the point, the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000·t + p` of the array. -/
def row (t : Fin cfg0.N) (p : Fin 5000) : Fin 100000 :=
  ⟨t.val * 5000 + p.val, by have ht : t.val < 20 := t.isLt; have hp := p.isLt; omega⟩

theorem emb_x (t : Fin cfg0.N) (p : Fin 5000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem emb_w (t : Fin cfg0.N) (k : Fin 128) (q : Fin 64) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

theorem emb_cj (t : Fin cfg0.N) (p : Fin 5000) :
    ((cfg0.win 2).blk t).view.emb (ix2 p (0 : Fin 1)) = ix2 (row t p) (0 : Fin 1) := by
  obtain ⟨-, -, -, -, e4, e5, -⟩ := idx_facts t
  funext a; apply Fin.ext
  match a with
  | ⟨0, _⟩ => show win0_2.index t (0 : Fin 2) * 5000 + 1 * p.val = t.val * 5000 + p.val; rw [e4]; omega
  | ⟨1, _⟩ => show win0_2.index t (1 : Fin 2) * 1 + 1 * 0 = 0; rw [e5]

theorem emb_out (t : Fin cfg0.N) (p : Fin 5000) (q : Fin 64) :
    ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 5000 + 1 * p.val = t.val * 5000 + p.val; rw [e6]; omega
  | ⟨1, _⟩ => show win0_3.index t (1 : Fin 2) * 64 + 1 * q.val = q.val; rw [e7]; omega

variable (V : (c : Dev nD) → (b : Ref sig .tc) → Buf (Elt Ideal) ((c : Thread nD τ).loc b))

/-- What point `t` writes back is block `t` of `feat` of the arrays as the region finds them. -/
theorem flushed_eq (c : Dev nD) (t : Fin cfg0.N) :
    (dat0 V c).flushed 3 t
      = ((cfg0.win 3).blk t).view.read (Elt Ideal) (feat (V c main_arg0) (V c main_arg1) (V c main_arg2)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x64) origin, View.ld_unit_zero (S := S5000x1) origin]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = feat (V c main_arg0) (V c main_arg1) (V c main_arg2) (((cfg0.win 3).blk t).view.emb (ix2 p q))
  refine (pay_apply _ _ _ p q).trans ?_
  rw [emb_out t p q, feat_apply]
  unfold featAt
  refine congrArg₂ (· * ·) (Finset.sum_congr rfl fun k _ => congrArg₂ (· * ·) ?_ ?_) ?_
  · show V c main_arg0 (((cfg0.win 0).blk t).view.emb (ix2 p k)) = _
    rw [emb_x t p k]
  · show V c main_arg1 (((cfg0.win 1).blk t).view.emb (ix2 k q)) = _
    rw [emb_w t k q]
  · show V c main_arg2 (((cfg0.win 2).blk t).view.emb (ix2 p (0 : Fin 1))) = _
    rw [emb_cj t p]

/-- An index of the array lies in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Every row belongs to the block of the point `row / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

/-- The region's output array after the run. -/
theorem array_eq (c : Dev nD) :
    (dat0 V c).arrAt 3 cfg0.N = feat (V c main_arg0) (V c main_arg1) (V c main_arg2) :=
  (dat0 V c).arrAt_eq_of_cover 3 _ (fun t _ => flushed_eq V c t) cover

end Cert.GraphConv.Transform

end
-- ==== Proof.ScaleBlock.lean ====
/-
  The second kernel region (the destination-side scaling) as a value: after its ten grid points have written
  back, the output array is `scaled` of the two arrays the region reads.

  Point `t` loads rows `10000·t … 10000·t + 9999` of the aggregate and of `ci`; its one store writes, at `(p, q)`
  of the block, `a (10000·t + p, q) · ci (10000·t + p)`, and the ten blocks tile the hundred thousand rows.
-/
import proofs.«151857_j223338299478_1_alg».proof.Proof.Gen.KernelIdeal.Frame
import proofs.«151857_j223338299478_1_alg».proof.Proof.GraphConvSpec

set_option maxRecDepth 16384

noncomputable section

namespace Cert.GraphConv.Scale

open Idealize.ShloMosaic Idealize.ShloMosaic.ValueIdx Idealize.ShloMosaic.TcCoe Idealize.SL.Sem
open Idealize.ShloMosaic.Pipeline (Dat Cfg Window)
open Cert.KernelIdeal Cert.KernelIdeal.Gen

/-- The body's store at `(p, q)` of the block: the loaded entry times the row's norm. -/
theorem pay_apply (x0 : Vec Ideal S10000x64 .f32) (x1 : Vec Ideal S10000x1 .f32) (p : Fin 10000) (q : Fin 64) :
    k1_pay1 (F := Ideal) x0 x1 (ix2 p q) = x0 (ix2 p q) * x1 (ix2 p (0 : Fin 1)) := by
  unfold k1_pay1
  refine (mulf_apply _ _ _).trans ?_
  refine congrArg₂ (· * ·) ?_ ?_
  · exact congrFun (shapeCast_self x0 _) (ix2 p q)
  · exact Cert.RowOps.broadcastTo_a1_ab_apply x1 _ p q

theorem origin : (![0, 0] : Fin 2 → Nat) = fun _ => 0 := funext fun a => by fin_cases a <;> rfl

/-- The index maps over the grid: every window moves with the point along the rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of point `t`'s block is row `10000·t + p` of the array. -/
def row (t : Fin cfg1.N) (p : Fin 10000) : Fin 100000 :=
  ⟨t.val * 10000 + p.val, by have ht : t.val < 10 := t.isLt; have hp := p.isLt; omega⟩

theorem emb_agg (t : Fin cfg1.N) (p : Fin 10000) (q : Fin 64) :
    ((cfg1.win 0).blk t).view.emb (ix2 p q) = ix2 (row t p) q := by
  obtain ⟨e0, e1, -⟩ := idx_facts t
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

theorem emb_ci (t : Fin cfg1.N) (p : Fin 10000) :
    ((cfg1.win 1).blk t).view.emb (ix2 p (0 : Fin 1)) = ix2 (row t p) (0 : Fin 1) := by
  obtain ⟨-, -, e2, e3, -⟩ := idx_facts t
  funext a; apply Fin.ext
  match a with
  | ⟨0, _⟩ => show win1_1.index t (0 : Fin 2) * 10000 + 1 * p.val = t.val * 10000 + p.val; rw [e2]; omega
  | ⟨1, _⟩ => show win1_1.index t (1 : Fin 2) * 1 + 1 * 0 = 0; rw [e3]

theorem emb_out (t : Fin cfg1.N) (p : Fin 10000) (q : Fin 64) :
    ((cfg1.win 2).blk t).view.emb (ix2 p q) = ix2 (row t p) q := by
  obtain ⟨-, -, -, -, e4, e5⟩ := idx_facts t
  funext a; apply Fin.ext
  match a with
  | ⟨0, _⟩ => show win1_2.index t (0 : Fin 2) * 10000 + 1 * p.val = t.val * 10000 + p.val; rw [e4]; omega
  | ⟨1, _⟩ => show win1_2.index t (1 : Fin 2) * 64 + 1 * q.val = q.val; rw [e5]; omega

variable (V : (c : Dev nD) → (b : Ref sig .tc) → Buf (Elt Ideal) ((c : Thread nD τ).loc b))

/-- What point `t` writes back is block `t` of `scaled` of the arrays as the region finds them. -/
theorem flushed_eq (c : Dev nD) (t : Fin cfg1.N) :
    (dat1 V c).flushed 2 t
      = ((cfg1.win 2).blk t).view.read (Elt Ideal) (scaled (V c main_v10) (V c main_arg3)) := by
  show (cfg1.win 2).cut (grid1.coords t) ((dat1 V c).after 2 t) = _
  rw [after1_2]
  unfold out1_2
  rw [View.canon_unit_zero origin]
  simp only [View.ld_unit_zero (S := S10000x64) origin, View.ld_unit_zero (S := S10000x1) origin]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = scaled (V c main_v10) (V c main_arg3) (((cfg1.win 2).blk t).view.emb (ix2 p q))
  refine (pay_apply _ _ p q).trans ?_
  rw [emb_out t p q, scaled_apply]
  refine congrArg₂ (· * ·) ?_ ?_
  · show V c main_v10 (((cfg1.win 0).blk t).view.emb (ix2 p q)) = _
    rw [emb_agg t p q]
  · show V c main_arg3 (((cfg1.win 1).blk t).view.emb (ix2 p (0 : Fin 1))) = _
    rw [emb_ci t p]

/-- An index of the array lies in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v11).slice (win1_2.rect t)).set ↔ _
  rw [View.set_slice_whole, Rect.mem_set_unit]
  exact Iff.rfl

/-- Every row belongs to the block of the point `row / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show (i 0).val / 10000 < 10; omega⟩
  obtain ⟨-, -, -, -, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- The region's output array after the run. -/
theorem array_eq (c : Dev nD) :
    (dat1 V c).arrAt 2 cfg1.N = scaled (V c main_v10) (V c main_arg3) :=
  (dat1 V c).arrAt_eq_of_cover 2 _ (fun t _ => flushed_eq V c t) cover

end Cert.GraphConv.Scale

end
-- ==== Proof.KernelValue.lean ====
/-
  The idealized kernel program's result as one function of the argument arrays.

  Read backwards from the return: the result buffer is the second region's output array, which is `scaled` of
  what that region finds in the aggregate's buffer and in `ci`; the aggregate's buffer was written by the host
  operations between the regions, which are `aggregate` applied to the first region's output array and the two
  index arrays; and the first region's output array is `feat` of `x`, `w` and `cj`. No region and no host operation
  writes an argument array, so each is read at its launch contents.
-/
import proofs.«151857_j223338299478_1_alg».proof.Proof.TransformBlock
import proofs.«151857_j223338299478_1_alg».proof.Proof.ScaleBlock
import proofs.«151857_j223338299478_1_alg».proof.Proof.KernelRun
import Idealize.ShloMosaic.Lib.StableHlo.Run

set_option maxRecDepth 16384

noncomputable section

namespace Cert.GraphConv.KernelValue

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- At the first region's exit its output array holds the scaled feature transform of the launch arrays. -/
theorem feat_at_exit (c : Dev nD) :
    W1 m ρ c (Proc.devRef .tc main_v0)
      = feat (m ((c : Thread nD τ).loc main_arg0)) (m ((c : Thread nD τ).loc main_arg1)) (m ((c : Thread nD τ).loc main_arg2)) :=
  (W1_arr m ρ c 3).trans (Transform.array_eq (V0 m ρ) c)

/-- The first region leaves the index arrays as launched. -/
theorem src_at_exit (c : Dev nD) : W1 m ρ c (Proc.devRef .tc main_arg4) = m ((c : Thread nD τ).loc main_arg4) :=
  W1_of_ne m ρ c main_arg4 (by decide)
theorem dst_at_exit (c : Dev nD) : W1 m ρ c (Proc.devRef .tc main_arg5) = m ((c : Thread nD τ).loc main_arg5) :=
  W1_of_ne m ρ c main_arg5 (by decide)

/-- The host operations between the regions leave, in the aggregate's buffer, `aggregate` of the first region's
    output array and the index arrays as that stretch finds them. -/
theorem agg_at_entry (c : Dev nD) :
    W2 m ρ c (Proc.devRef .tc main_v10)
      = aggregate (W1 m ρ c (Proc.devRef .tc main_v0)) (W1 m ρ c (Proc.devRef .tc main_arg4)) (W1 m ρ c (Proc.devRef .tc main_arg5)) := by
  show StableHlo.after hostOps1 (W1 m ρ c) (Proc.devRef .tc main_v10) = _
  after_results <;> rfl

/-- The second region finds `ci` as launched: it reads it through an input window, whose array its write-backs
    leave alone, and nothing before wrote it. -/
theorem ci_at_entry (c : Dev nD) : V2 m ρ c main_arg3 = m ((c : Thread nD τ).loc main_arg3) :=
  (A_eq1 (V2 m ρ) c 1).symm.trans (((dat1 (V2 m ρ) c).arrAt_in 1 rfl _).symm.trans
    ((W3_arr m ρ c 1).symm.trans (W3_main_arg3 m ρ c)))

/-- The result buffer at the return: `scaled (aggregate (feat x w cj) src dst) ci` of the launch arrays. -/
theorem result_eq (c : Dev nD) :
    W3 m ρ c (Proc.devRef .tc main_v11)
      = scaled (aggregate (feat (m ((c : Thread nD τ).loc main_arg0)) (m ((c : Thread nD τ).loc main_arg1)) (m ((c : Thread nD τ).loc main_arg2)))
          (m ((c : Thread nD τ).loc main_arg4)) (m ((c : Thread nD τ).loc main_arg5))) (m ((c : Thread nD τ).loc main_arg3)) := by
  refine (W3_arr m ρ c 2).trans ((Scale.array_eq (V2 m ρ) c).trans ?_)
  refine congrArg₂ scaled ?_ (ci_at_entry m ρ c)
  refine (agg_at_entry m ρ c).trans ?_
  rw [feat_at_exit m ρ c, src_at_exit m ρ c, dst_at_exit m ρ c]

/-- The run of the idealized kernel program with its result as that function of the arguments. -/
theorem run : θ_run defs (onTc (τ := τ) (main (F := Ideal))) ⟨m, fun _ => 0, ρ⟩ (fun r => ∀ c : Dev nD,
      r.2.mem ((c.tc : Thread nD τ).loc main_v11)
        = scaled (aggregate (feat (m ((c : Thread nD τ).loc main_arg0)) (m ((c : Thread nD τ).loc main_arg1)) (m ((c : Thread nD τ).loc main_arg2)))
            (m ((c : Thread nD τ).loc main_arg4)) (m ((c : Thread nD τ).loc main_arg5))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Run.run_named m ρ)

end Cert.GraphConv.KernelValue

end
-- ==== Proof.RefSide.lean ====
/-
  The reference's result, read off its run one operation at a time, is the same function of the arguments:
  `scaled (aggregate (feat x w cj) src dst) ci`.

  Its `dot_general` is, entry by entry, the sum over the 128 input features; the broadcast of `cj` over the columns
  reads the row's norm; so the product of the two is `feat`. The index normalisation, the gather along the edges
  and the scatter-add into the destination rows are the very operations `aggregate` names, applied to that array.
  The last product with the broadcast of `ci` is `scaled`.
-/
import proofs.«151857_j223338299478_1_alg».proof.Proof.Gen.ReferenceIdeal.Run
import proofs.«151857_j223338299478_1_alg».proof.Proof.Gen.ReferenceIdeal.Read
import proofs.«151857_j223338299478_1_alg».proof.Proof.GraphConvSpec

noncomputable section

namespace Cert.GraphConv.Ref

open Idealize.ShloMosaic Idealize.ShloMosaic.ValueIdx Idealize.ShloMosaic.TcCoe Idealize.SL.Sem
open Cert.ReferenceIdeal Cert.ReferenceIdeal.Read

theorem lidx_eq (p : Fin 100000) (q : Fin 64) (k : Fin 128) : lidx_main_v0 (ix2 p q) k = ix2 p k :=
  funext fun a => Fin.ext (by match a with | ⟨0, _⟩ => rfl | ⟨1, _⟩ => rfl)
theorem ridx_eq (p : Fin 100000) (q : Fin 64) (k : Fin 128) : ridx_main_v0 (ix2 p q) k = ix2 k q :=
  funext fun a => Fin.ext (by match a with | ⟨0, _⟩ => rfl | ⟨1, _⟩ => rfl)
theorem cjidx_eq (p : Fin 100000) (q : Fin 64) : idx_main_v1 (ix2 p q) = ix2 p (0 : Fin 1) :=
  funext fun a => Fin.ext (by match a with | ⟨0, _⟩ => rfl | ⟨1, _⟩ => rfl)
theorem ciidx_eq (p : Fin 100000) (q : Fin 64) : idx_main_v13 (ix2 p q) = ix2 p (0 : Fin 1) :=
  funext fun a => Fin.ext (by match a with | ⟨0, _⟩ => rfl | ⟨1, _⟩ => rfl)

/-- The reference's scaled product `(x · w) * cj` is `feat`. -/
theorem feat_eq (x0 : FVec Ideal S100000x128 .f32) (x1 : FVec Ideal S128x64 .f32) (x2 : FVec Ideal S100000x1 .f32) :
    val_main_v2 (F := Ideal) x0 x1 x2 = feat x0 x1 x2 := by
  funext i
  obtain ⟨p, q, rfl⟩ : ∃ (p : Fin 100000) (q : Fin 64), i = ix2 p q := ⟨i 0, i 1, eq_ix2 i⟩
  rw [val_main_v2_apply, val_main_v0_apply, val_main_v1_apply, feat_apply]
  simp only [lidx_eq, ridx_eq, cjidx_eq, Ideal.mulf_def]
  rfl

/-- The reference's index normalisation, gather and scatter-add are `aggregate` of the array they are applied to. -/
theorem agg_eq (h : FVec Ideal S100000x64 .f32) (x4 x5 : IVec S1600000 32) :
    Host.scatterAdd (F := Ideal) scatter_S100000x64_S1600000x1_S1600000x64_1_0_0_1 (val_main_v10 (F := Ideal)) (val_main_v11 (F := Ideal) x5)
        (Host.gather gather_S100000x64_S1600000x1_S1600000x64_1_0_n_n_0_1_164 h (val_main_v8 (F := Ideal) x4))
      = aggregate h x4 x5 := rfl

/-- The reference's result is `scaled (aggregate (feat x w cj) src dst) ci`. -/
theorem result_eq (x0 : FVec Ideal S100000x128 .f32) (x1 : FVec Ideal S128x64 .f32) (x2 x3 : FVec Ideal S100000x1 .f32)
    (x4 x5 : IVec S1600000 32) :
    val_main_v14 (F := Ideal) x0 x1 x2 x3 x4 x5 = scaled (aggregate (feat x0 x1 x2) x4 x5) x3 := by
  have hagg : val_main_v12 (F := Ideal) x0 x1 x2 x4 x5 = aggregate (feat x0 x1 x2) x4 x5 := by
    unfold val_main_v12 val_main_v9
    rw [feat_eq]
    exact agg_eq _ x4 x5
  funext i
  obtain ⟨p, q, rfl⟩ : ∃ (p : Fin 100000) (q : Fin 64), i = ix2 p q := ⟨i 0, i 1, eq_ix2 i⟩
  rw [val_main_v14_apply, val_main_v13_apply, hagg, scaled_apply, ciidx_eq, Ideal.mulf_def]

end Cert.GraphConv.Ref

end
-- ==== Proof.lean ====
/-
  A graph convolution with edge-count normalisation: `out = (A · ((x · w) * cj)) * ci`, where `x · w` is a dense
  feature transform, `cj` and `ci` are per-node norms (one column each), and `A` is the sparse adjacency given by
  1.6 million (source, destination) index pairs: rows are gathered along the edges' sources and summed into the
  edges' destinations.

  The kernel program computes the two dense parts in two kernel regions — the transform fused with the `cj`
  scaling, twenty blocks of 5000 rows; and the `ci` scaling, ten blocks of 10000 rows — and leaves the gather and
  the scatter-add between them to host operations. The reference does all of it in host operations.

  On the extended reals the kernel's conversion of `x` and `w` to bf16 is the identity and its block matrix product
  from a zero accumulator is the same sum over the 128 input features as the reference's `dot_general`, so the
  first region's output array and the reference's `(x · w) * cj` are one array (`feat`). Both programs then apply
  the same index normalisation, gather and scatter-add to that array (`aggregate`, never opened), and the second
  region's output and the reference's last product are the same row scaling of the result (`scaled`). No law of
  arithmetic beyond reading each operation at an index is used, so the inputs' finiteness is not needed.

  The ideal pass rewrote nothing, so that the idealized kernel program is the kernel program's sanctioned
  idealization holds trivially; the three frames are the generated ones (the reference's from its generated run).
-/
import proofs.«151857_j223338299478_1_alg».proof.Defs
import proofs.«151857_j223338299478_1_alg».proof.Proof.Gen.Kernel
import proofs.«151857_j223338299478_1_alg».proof.Proof.Gen.Kernel.Frame
import proofs.«151857_j223338299478_1_alg».proof.Proof.Gen.KernelIdeal
import proofs.«151857_j223338299478_1_alg».proof.Proof.Gen.KernelIdeal.Frame
import proofs.«151857_j223338299478_1_alg».proof.Proof.Gen.ReferenceIdeal
import proofs.«151857_j223338299478_1_alg».proof.Proof.Gen.ReferenceIdeal.Run
import proofs.«151857_j223338299478_1_alg».proof.Proof.Gen.ReferenceIdeal.Read
import proofs.«151857_j223338299478_1_alg».proof.Proof.Gen.Pre_finite_inputs
import proofs.«151857_j223338299478_1_alg».proof.Proof.KernelValue
import proofs.«151857_j223338299478_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at `scaled (aggregate (feat x w cj) src dst) ci` of arguments that agree. -/
theorem algebraic : Cert.algebraic_KernelIdeal_ReferenceIdeal := by
  intro m ρ m' ρ' _ hagree
  refine ⟨_, Cert.GraphConv.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v14_eq _ _ _ _ _ _).trans (Cert.GraphConv.Ref.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
